-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S256x1024 : Shape := ⟨2, ![256, 1024]⟩
abbrev S256x3072 : Shape := ⟨2, ![256, 3072]⟩
abbrev S1x3072 : Shape := ⟨2, ![1, 3072]⟩

abbrev nBuf : Space → Nat
  | .hbm => 28
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x3072, .f32⟩
  | .hbm, ⟨19, _⟩ => ⟨S1024x3072, .bf16⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x3072, .f32⟩
  | .hbm, ⟨24, _⟩ => ⟨S1024x3072, .bf16⟩
  | .hbm, ⟨25, _⟩ => ⟨S3072, .f32⟩
  | .hbm, ⟨26, _⟩ => ⟨S3072, .f32⟩
  | .hbm, ⟨27, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x3072, .bf16⟩
  | .local _ .vmem, ⟨7, _⟩ => ⟨S1024x3072, .bf16⟩
  | .local _ .vmem, ⟨8, _⟩ => ⟨S3072, .f32⟩
  | .local _ .vmem, ⟨9, _⟩ => ⟨S3072, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072.size a ≤ S3072.size a
  hwx0_5 : ∀ i : grid0.Coords, EltTy.bits .f32 = 32 ∨ (Rect.block (s := S3072) S3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072.size a ≤ S3072.size a
  hwx0_6 : ∀ i : grid0.Coords, EltTy.bits .f32 = 32 ∨ (Rect.block (s := S3072) S3072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S16384x3072 : Shape := ⟨2, ![16384, 3072]⟩
abbrev S1x3072 : Shape := ⟨2, ![1, 3072]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S3072x1024, .f32⟩
  | .hbm, ⟨16, _⟩ => ⟨S3072x1024, .f32⟩
  | .hbm, ⟨17, _⟩ => ⟨S3072, .f32⟩
  | .hbm, ⟨18, _⟩ => ⟨S3072, .f32⟩
  | .hbm, ⟨19, _⟩ => ⟨S1024x3072, .f32⟩
  | .hbm, ⟨20, _⟩ => ⟨S16384x3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S1024x3072, .f32⟩
  | .hbm, ⟨25, _⟩ => ⟨S16384x3072, .f32⟩
  | .hbm, ⟨26, _⟩ => ⟨S16384x3072, .f32⟩
  | .hbm, ⟨27, _⟩ => ⟨S1x3072, .f32⟩
  | .hbm, ⟨28, _⟩ => ⟨S16384x3072, .f32⟩
  | .hbm, ⟨29, _⟩ => ⟨S16384x3072, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.CellFrame.lean ====
import proofs.«178243_j33921651704111_1_alg».proof.Proof.Gen.Kernel.Launch
import proofs.«178243_j33921651704111_1_alg».proof.Proof.Gen.Kernel.Skeleton
import proofs.«178243_j33921651704111_1_alg».proof.Proof.Gen.Kernel.Points
import Idealize.ShloMosaic.Lib.Pipeline.FrameBody
import Idealize.ShloMosaic.Lib.Ring
import Idealize.ShloMosaic.Lib.Tactic

/-!
# The LSTM cell-state kernel runs to the end and leaves its fifteen arguments alone

@main first transposes the six weight matrices, lays each triple side by side as one 1024 x 3072 matrix,
narrows both, and joins the two triples of bias vectors into two vectors of 3072 entries; then one pipelined
region of 64 grid points follows.  At point `t` the body sees rows `256 t .. 256 t + 255` of `x`, `h` and `c`, the
two wide matrices and the two bias vectors whole, and writes its one result block: rows `256 t ..` of the new
cell state.

The body only loads whole staging buffers and stores one whole block, so its effect on the output buffer is a
pure function of the seven input blocks (`cellBlock`).  With that as the proof data the launch theorem for a
one-region program gives termination, absence of faults, the output array as the blocks written back, and every
other buffer untouched; the host prefix writes none of the fifteen arguments.  Everything here is stated for an
arbitrary float instance.
-/

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the twelve host operations: the launch contents with the transposed, joined and
    narrowed weights and the joined biases written over their result buffers. -/
abbrev entry (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the region, which is entered at `entry`. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window's current staging buffer holds its block at every point, whether or not the pipeline fetched
    it there: the three row windows are fetched at every point, and the four whole-array windows only at the first
    one, after which their block index never moves. -/
theorem held_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_in6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after the run, from the launch theorem's post -/

/-- For any proof data whose arrays are the region-entry contents, a final state that satisfies the launch theorem's
    post holds every argument as launched: `x`, `h` and `c` are input windows' arrays, the weights and biases are
    buffers no window stages, and the host prefix wrote none of them. -/
theorem kept_at (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-! ## What the body leaves in the output window's buffer -/

abbrev rowsRect : Rect S256x1024 := Rect.unit (s := S256x1024) ![0, 0] S256x1024.size inb_S256x1024_S256x1024_0_0
abbrev wideRect : Rect S1024x3072 := Rect.unit (s := S1024x3072) ![0, 0] S1024x3072.size inb_S1024x3072_S1024x3072_0_0
abbrev biasRect : Rect S3072 := Rect.unit (s := S3072) ![0] S3072.size inb_S3072_S3072_0

/-- The output staging buffer after the body, from the seven input blocks (`x`, `h`, `c` rows; the two wide
    matrices; the two bias vectors): its one store, whose value is the skeleton's payload of the loaded blocks. -/
def cellBlock (x h cc : Vec F S256x1024 .f32) (wx wh : Vec F S1024x3072 .bf16) (bx bh : Vec F S3072 .f32) : Vec F S256x1024 .f32 :=
  View.canon [⟨rowsRect, k0_pay1 (View.ld x rowsRect) (View.ld h rowsRect) (View.ld wx wideRect) (View.ld wh wideRect) (View.ld bx biasRect) (View.ld bh biasRect) (View.ld cc rowsRect)⟩]

/-- The one store covers the whole buffer. -/
theorem cellBlock_cover (p0 : Vec F S256x1024 .f32) (y : S256x1024.Idx) :
    ∃ pc ∈ ([⟨rowsRect, p0⟩] : List (View.Piece (Elt F) S256x1024 .f32)), y ∈ pc.1.set :=
  View.cover_of_tiled [⟨rowsRect, p0⟩] S256x1024.size (by rfl) y

/-! ## The body's triple -/

set_option maxHeartbeats 1000000 in
/-- The body on whole staging memrefs, the seven inputs' at given contents and the output's at anything, runs to the
    continuation with the inputs as they were and the output at `cellBlock` of them. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x3072 .bf16) (harg4 : arg4.IsWhole)
    (arg5 : Memref sig .tc .vmem S1024x3072 .bf16) (harg5 : arg5.IsWhole) (arg6 : Memref sig .tc .vmem S3072 .f32) (harg6 : arg6.IsWhole)
    (arg7 : Memref sig .tc .vmem S3072 .f32) (harg7 : arg7.IsWhole) (arg8 : Memref sig .tc .vmem S256x1024 .f32) (harg8 : arg8.IsWhole)
    (x0 x1 x2 : Vec F S256x1024 .f32) (x3 x4 : Vec F S1024x3072 .bf16) (x5 x6 : Vec F S3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (cellBlock x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cellBlock_cover _)

/-! ## The pipeline's proof data -/

/-- The proof data on core `c`: the arrays as the region finds them; after the body at point `t` every input's
    buffer still at its block and the output's at `cellBlock` of the seven input blocks; the invariant the scoped
    rest and the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => cellBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

/-- The proof data's arrays are the region-entry contents (projected, never unfolded). -/
theorem dats_A (c : Dev nD) (w : Fin cfg0.W) : (dats m 0 c).A w = entry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
/-- What the body leaves in the output window's buffer at point `t`. -/
theorem after_out (c : Dev nD) (t : Fin cfg0.N) : (dats m 0 c).after 7 t
    = cellBlock (blockAt m c 0 t) (blockAt m c 1 t) (blockAt m c 2 t) (blockAt m c 3 t) (blockAt m c 4 t) (blockAt m c 5 t) (blockAt m c 6 t) := by dsimp only [dats]

theorem before_in0 (c : Dev nD) (t : Fin cfg0.N) (d) : (dats m 0 c).before 0 t d = blockAt m c 0 t :=
  held_in0 m (dats m 0 c) (dats_A m c 0) (after_in0 m c) t d
theorem before_in1 (c : Dev nD) (t : Fin cfg0.N) (d) : (dats m 0 c).before 1 t d = blockAt m c 1 t :=
  held_in1 m (dats m 0 c) (dats_A m c 1) (after_in1 m c) t d
theorem before_in2 (c : Dev nD) (t : Fin cfg0.N) (d) : (dats m 0 c).before 2 t d = blockAt m c 2 t :=
  held_in2 m (dats m 0 c) (dats_A m c 2) (after_in2 m c) t d
theorem before_in3 (c : Dev nD) (t : Fin cfg0.N) (d) : (dats m 0 c).before 3 t d = blockAt m c 3 t :=
  held_in3 m (dats m 0 c) (dats_A m c 3) (after_in3 m c) t d
theorem before_in4 (c : Dev nD) (t : Fin cfg0.N) (d) : (dats m 0 c).before 4 t d = blockAt m c 4 t :=
  held_in4 m (dats m 0 c) (dats_A m c 4) (after_in4 m c) t d
theorem before_in5 (c : Dev nD) (t : Fin cfg0.N) (d) : (dats m 0 c).before 5 t d = blockAt m c 5 t :=
  held_in5 m (dats m 0 c) (dats_A m c 5) (after_in5 m c) t d
theorem before_in6 (c : Dev nD) (t : Fin cfg0.N) (d) : (dats m 0 c).before 6 t d = blockAt m c 6 t :=
  held_in6 m (dats m 0 c) (dats_A m c 6) (after_in6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `body_triple` applies; the invariant and the
    core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault, every
    array of the pipeline ends at what the proof data says and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_at m (dats m) (dats_A m) r h c) (run_main m ρ)

end Cert.Kernel.Cell

end
-- ==== Proof.CellFrameIdeal.lean ====
import proofs.«178243_j33921651704111_1_alg».proof.Proof.Gen.KernelIdeal.Launch
import proofs.«178243_j33921651704111_1_alg».proof.Proof.Gen.KernelIdeal.Skeleton
import proofs.«178243_j33921651704111_1_alg».proof.Proof.Gen.KernelIdeal.Points
import Idealize.ShloMosaic.Lib.Pipeline.FrameBody
import Idealize.ShloMosaic.Lib.Ring
import Idealize.ShloMosaic.Lib.Tactic

/-!
# The LSTM cell-state kernel runs to the end and leaves its fifteen arguments alone

@main first transposes the six weight matrices, lays each triple side by side as one 1024 x 3072 matrix,
narrows both, and joins the two triples of bias vectors into two vectors of 3072 entries; then one pipelined
region of 64 grid points follows.  At point `t` the body sees rows `256 t .. 256 t + 255` of `x`, `h` and `c`, the
two wide matrices and the two bias vectors whole, and writes its one result block: rows `256 t ..` of the new
cell state.

The body only loads whole staging buffers and stores one whole block, so its effect on the output buffer is a
pure function of the seven input blocks (`cellBlock`).  With that as the proof data the launch theorem for a
one-region program gives termination, absence of faults, the output array as the blocks written back, and every
other buffer untouched; the host prefix writes none of the fifteen arguments.  Everything here is stated for an
arbitrary float instance.
-/

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the twelve host operations: the launch contents with the transposed, joined and
    narrowed weights and the joined biases written over their result buffers. -/
abbrev entry (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the region, which is entered at `entry`. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window's current staging buffer holds its block at every point, whether or not the pipeline fetched
    it there: the three row windows are fetched at every point, and the four whole-array windows only at the first
    one, after which their block index never moves. -/
theorem held_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_in6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after the run, from the launch theorem's post -/

/-- For any proof data whose arrays are the region-entry contents, a final state that satisfies the launch theorem's
    post holds every argument as launched: `x`, `h` and `c` are input windows' arrays, the weights and biases are
    buffers no window stages, and the host prefix wrote none of them. -/
theorem kept_at (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-! ## What the body leaves in the output window's buffer -/

abbrev rowsRect : Rect S256x1024 := Rect.unit (s := S256x1024) ![0, 0] S256x1024.size inb_S256x1024_S256x1024_0_0
abbrev wideRect : Rect S1024x3072 := Rect.unit (s := S1024x3072) ![0, 0] S1024x3072.size inb_S1024x3072_S1024x3072_0_0
abbrev biasRect : Rect S3072 := Rect.unit (s := S3072) ![0] S3072.size inb_S3072_S3072_0

/-- The output staging buffer after the body, from the seven input blocks (`x`, `h`, `c` rows; the two wide
    matrices; the two bias vectors): its one store, whose value is the skeleton's payload of the loaded blocks. -/
def cellBlock (x h cc : Vec F S256x1024 .f32) (wx wh : Vec F S1024x3072 .bf16) (bx bh : Vec F S3072 .f32) : Vec F S256x1024 .f32 :=
  View.canon [⟨rowsRect, k0_pay1 (View.ld x rowsRect) (View.ld h rowsRect) (View.ld wx wideRect) (View.ld wh wideRect) (View.ld bx biasRect) (View.ld bh biasRect) (View.ld cc rowsRect)⟩]

/-- The one store covers the whole buffer. -/
theorem cellBlock_cover (p0 : Vec F S256x1024 .f32) (y : S256x1024.Idx) :
    ∃ pc ∈ ([⟨rowsRect, p0⟩] : List (View.Piece (Elt F) S256x1024 .f32)), y ∈ pc.1.set :=
  View.cover_of_tiled [⟨rowsRect, p0⟩] S256x1024.size (by rfl) y

/-! ## The body's triple -/

set_option maxHeartbeats 1000000 in
/-- The body on whole staging memrefs, the seven inputs' at given contents and the output's at anything, runs to the
    continuation with the inputs as they were and the output at `cellBlock` of them. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x3072 .bf16) (harg4 : arg4.IsWhole)
    (arg5 : Memref sig .tc .vmem S1024x3072 .bf16) (harg5 : arg5.IsWhole) (arg6 : Memref sig .tc .vmem S3072 .f32) (harg6 : arg6.IsWhole)
    (arg7 : Memref sig .tc .vmem S3072 .f32) (harg7 : arg7.IsWhole) (arg8 : Memref sig .tc .vmem S256x1024 .f32) (harg8 : arg8.IsWhole)
    (x0 x1 x2 : Vec F S256x1024 .f32) (x3 x4 : Vec F S1024x3072 .bf16) (x5 x6 : Vec F S3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (cellBlock x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cellBlock_cover _)

/-! ## The pipeline's proof data -/

/-- The proof data on core `c`: the arrays as the region finds them; after the body at point `t` every input's
    buffer still at its block and the output's at `cellBlock` of the seven input blocks; the invariant the scoped
    rest and the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => cellBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

/-- The proof data's arrays are the region-entry contents (projected, never unfolded). -/
theorem dats_A (c : Dev nD) (w : Fin cfg0.W) : (dats m 0 c).A w = entry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
/-- What the body leaves in the output window's buffer at point `t`. -/
theorem after_out (c : Dev nD) (t : Fin cfg0.N) : (dats m 0 c).after 7 t
    = cellBlock (blockAt m c 0 t) (blockAt m c 1 t) (blockAt m c 2 t) (blockAt m c 3 t) (blockAt m c 4 t) (blockAt m c 5 t) (blockAt m c 6 t) := by dsimp only [dats]

theorem before_in0 (c : Dev nD) (t : Fin cfg0.N) (d) : (dats m 0 c).before 0 t d = blockAt m c 0 t :=
  held_in0 m (dats m 0 c) (dats_A m c 0) (after_in0 m c) t d
theorem before_in1 (c : Dev nD) (t : Fin cfg0.N) (d) : (dats m 0 c).before 1 t d = blockAt m c 1 t :=
  held_in1 m (dats m 0 c) (dats_A m c 1) (after_in1 m c) t d
theorem before_in2 (c : Dev nD) (t : Fin cfg0.N) (d) : (dats m 0 c).before 2 t d = blockAt m c 2 t :=
  held_in2 m (dats m 0 c) (dats_A m c 2) (after_in2 m c) t d
theorem before_in3 (c : Dev nD) (t : Fin cfg0.N) (d) : (dats m 0 c).before 3 t d = blockAt m c 3 t :=
  held_in3 m (dats m 0 c) (dats_A m c 3) (after_in3 m c) t d
theorem before_in4 (c : Dev nD) (t : Fin cfg0.N) (d) : (dats m 0 c).before 4 t d = blockAt m c 4 t :=
  held_in4 m (dats m 0 c) (dats_A m c 4) (after_in4 m c) t d
theorem before_in5 (c : Dev nD) (t : Fin cfg0.N) (d) : (dats m 0 c).before 5 t d = blockAt m c 5 t :=
  held_in5 m (dats m 0 c) (dats_A m c 5) (after_in5 m c) t d
theorem before_in6 (c : Dev nD) (t : Fin cfg0.N) (d) : (dats m 0 c).before 6 t d = blockAt m c 6 t :=
  held_in6 m (dats m 0 c) (dats_A m c 6) (after_in6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `body_triple` applies; the invariant and the
    core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault, every
    array of the pipeline ends at what the proof data says and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_at m (dats m) (dats_A m) r h c) (run_main m ρ)

end Cert.KernelIdeal.Cell

end
-- ==== Proof.LibJoinCols.lean ====
/-
  Matrices joined side by side, and a band of columns cut out of a matrix, read at an entry.

  Joining an R × W₁ matrix x and an R × W₂ matrix y along the column axis gives an R × T matrix, T = W₁ + W₂, whose
  row r is row r of x followed by row r of y: column k of the joined row is x(r, k) for k < W₁ and y(r, k − W₁) beyond.
  Joining three matrices of widths W₁, W₂, W₃ does the same with three rows laid end to end, and laying three rows end
  to end is laying the first two end to end and then the third after them.  Cutting the W columns that start at column
  o out of an R × C matrix gives the R × W matrix whose entry (r, k) is entry (r, o + k) of the original.
  In each case row r of the result depends on the operands only through their rows r.
  Stated for every R, every widths and every element type.
-/
import Idealize.ShloMosaic.Lib.Pipeline.Value
import Idealize.ShloMosaic.Lib.ValueIdx

noncomputable section

namespace Cert.LibJoinCols

open Idealize.ShloMosaic Idealize.ShloMosaic.ValueIdx

variable {α : Type}

/-- Column `k` of a row of width `W₁` followed by a row of width `W₂`. -/
def join2 {W₁ W₂ T : Nat} (hT : W₁ + W₂ = T) (a : Fin W₁ → α) (b : Fin W₂ → α) (k : Fin T) : α :=
  if h : k.val < W₁ then a ⟨k.val, h⟩ else b ⟨k.val - W₁, by have := k.isLt; omega⟩

/-- Column `k` of three rows of widths `W₁`, `W₂`, `W₃` laid end to end. -/
def join3 {W₁ W₂ W₃ T : Nat} (hT : W₁ + W₂ + W₃ = T) (a : Fin W₁ → α) (b : Fin W₂ → α) (c : Fin W₃ → α) (k : Fin T) : α :=
  if h : k.val < W₁ then a ⟨k.val, h⟩
  else if h2 : k.val < W₁ + W₂ then b ⟨k.val - W₁, by omega⟩
  else c ⟨k.val - (W₁ + W₂), by have := k.isLt; omega⟩

/-- In the first `W₁` columns a joined row is its first part. -/
theorem join2_left {W₁ W₂ T : Nat} (hT : W₁ + W₂ = T) (a : Fin W₁ → α) (b : Fin W₂ → α) (k : Fin T) (h : k.val < W₁) :
    join2 hT a b k = a ⟨k.val, h⟩ := dif_pos h

/-- Beyond the first `W₁` columns a joined row is its second part. -/
theorem join2_right {W₁ W₂ T : Nat} (hT : W₁ + W₂ = T) (a : Fin W₁ → α) (b : Fin W₂ → α) (k : Fin T) (h : ¬ k.val < W₁) :
    join2 hT a b k = b ⟨k.val - W₁, by have := k.isLt; omega⟩ := dif_neg h

/-- Three rows laid end to end are the first two laid end to end, then the third. -/
theorem join3_eq_join2 {W₁ W₂ W₃ T : Nat} (hT : W₁ + W₂ + W₃ = T) (a : Fin W₁ → α) (b : Fin W₂ → α) (c : Fin W₃ → α)
    (k : Fin T) : join3 hT a b c k = join2 (W₁ := W₁ + W₂) hT (join2 rfl a b) c k := by
  unfold join3 join2
  by_cases h1 : k.val < W₁
  · have h12 : k.val < W₁ + W₂ := by omega
    simp only [dif_pos h1, dif_pos h12]
  · by_cases h2 : k.val < W₁ + W₂
    · simp only [dif_neg h1, dif_pos h2]
    · simp only [dif_neg h1, dif_neg h2]

/-- Off the column axis an entry of a part and the entry of the join it lands on have the same coordinate. -/
private theorem row_coord {R W T : Nat} (r : Fin R) (w : Fin W) (k : Fin T)
    (b : Fin (⟨2, ![R, W]⟩ : Shape).rank) (hb : b.cast (rfl : (2 : Nat) = 2) ≠ (1 : Fin 2)) :
    ((ix2 r w : (⟨2, ![R, W]⟩ : Shape).Idx) b).val = ((ix2 r k : (⟨2, ![R, T]⟩ : Shape).Idx) (b.cast rfl)).val := by
  match b with
  | ⟨0, _⟩ => rfl
  | ⟨1, _⟩ => exact absurd rfl hb

/-- The join of an `R × W₁` and an `R × W₂` matrix along the columns, at `(r, k)`: column `k` of the two rows `r`
    laid end to end. -/
theorem concatenate2_apply {R W₁ W₂ T : Nat} (hT : W₁ + W₂ = T)
    (x : (⟨2, ![R, W₁]⟩ : Shape).Idx → α) (y : (⟨2, ![R, W₂]⟩ : Shape).Idx → α)
    (h : Shape.Concatenates
      (([⟨⟨2, ![R, W₁]⟩, x⟩, ⟨⟨2, ![R, W₂]⟩, y⟩] : List ((s : Shape) × (s.Idx → α))).map (·.1)) ⟨2, ![R, T]⟩ 1)
    (r : Fin R) (k : Fin T) :
    concatenate ⟨2, ![R, T]⟩ 1 [⟨⟨2, ![R, W₁]⟩, x⟩, ⟨⟨2, ![R, W₂]⟩, y⟩] h (ix2 r k)
      = join2 hT (fun j => x (ix2 r j)) (fun j => y (ix2 r j)) k := by
  unfold join2
  split
  · rename_i h1
    exact concatenate_apply_piece 1 _ h (ix2 r k) 0 (by simp) ⟨2, ![R, W₁]⟩ x rfl rfl 0 rfl
      (ix2 r ⟨k.val, h1⟩) (row_coord r _ k) (by show 0 + k.val = k.val; omega)
  · rename_i h1
    exact concatenate_apply_piece 1 _ h (ix2 r k) 1 (by simp) ⟨2, ![R, W₂]⟩ y rfl rfl W₁ (by simp)
      (ix2 r ⟨k.val - W₁, by have := k.isLt; omega⟩) (row_coord r _ k) (by show W₁ + (k.val - W₁) = k.val; omega)

/-- The join of three matrices of `R` rows along the columns, at `(r, k)`: column `k` of the three rows `r` laid end
    to end. -/
theorem concatenate3_apply {R W₁ W₂ W₃ T : Nat} (hT : W₁ + W₂ + W₃ = T)
    (x : (⟨2, ![R, W₁]⟩ : Shape).Idx → α) (y : (⟨2, ![R, W₂]⟩ : Shape).Idx → α) (z : (⟨2, ![R, W₃]⟩ : Shape).Idx → α)
    (h : Shape.Concatenates
      (([⟨⟨2, ![R, W₁]⟩, x⟩, ⟨⟨2, ![R, W₂]⟩, y⟩, ⟨⟨2, ![R, W₃]⟩, z⟩] : List ((s : Shape) × (s.Idx → α))).map (·.1))
      ⟨2, ![R, T]⟩ 1)
    (r : Fin R) (k : Fin T) :
    concatenate ⟨2, ![R, T]⟩ 1 [⟨⟨2, ![R, W₁]⟩, x⟩, ⟨⟨2, ![R, W₂]⟩, y⟩, ⟨⟨2, ![R, W₃]⟩, z⟩] h (ix2 r k)
      = join3 hT (fun j => x (ix2 r j)) (fun j => y (ix2 r j)) (fun j => z (ix2 r j)) k := by
  unfold join3
  split
  · rename_i h1
    exact concatenate_apply_piece 1 _ h (ix2 r k) 0 (by simp) ⟨2, ![R, W₁]⟩ x rfl rfl 0 rfl
      (ix2 r ⟨k.val, h1⟩) (row_coord r _ k) (by show 0 + k.val = k.val; omega)
  · rename_i h1
    split
    · rename_i h2
      exact concatenate_apply_piece 1 _ h (ix2 r k) 1 (by simp) ⟨2, ![R, W₂]⟩ y rfl rfl W₁ (by simp)
        (ix2 r ⟨k.val - W₁, by omega⟩) (row_coord r _ k) (by show W₁ + (k.val - W₁) = k.val; omega)
    · rename_i h2
      exact concatenate_apply_piece 1 _ h (ix2 r k) 2 (by simp) ⟨2, ![R, W₃]⟩ z rfl rfl (W₁ + W₂) (by simp)
        (ix2 r ⟨k.val - (W₁ + W₂), by have := k.isLt; omega⟩) (row_coord r _ k)
        (by show W₁ + W₂ + (k.val - (W₁ + W₂)) = k.val; omega)

/-- The `W` columns of an `R × C` matrix that start at column `o`, at `(r, k)`: the matrix at `(r, o + k)`. -/
theorem sliceCols_apply {R C W : Nat} (o : Nat) (x : (⟨2, ![R, C]⟩ : Shape).Idx → α)
    (h : (⟨2, ![R, C]⟩ : Shape).Slices ![0, o] ⟨2, ![R, W]⟩) (ho : o + W ≤ C) (r : Fin R) (k : Fin W) :
    extractStridedSlice ⟨2, ![R, W]⟩ ![0, o] x h (ix2 r k) = x (ix2 r ⟨o + k.val, by have := k.isLt; omega⟩) :=
  extractStridedSlice_apply ![0, o] x h (ix2 r k) (ix2 r ⟨o + k.val, by have := k.isLt; omega⟩) (fun a => match a with
    | ⟨0, _⟩ => by show r.val = 0 + r.val; omega
    | ⟨1, _⟩ => rfl)

end Cert.LibJoinCols

end
-- ==== Proof.CellSpec.lean ====
/-
  The new cell state of one LSTM step, entry by entry, over the extended reals.

  For one batch row with input `xr`, hidden state `hr` and cell state `cr` (1024 entries each), wide weight
  matrices `wx`, `wh` (1024 × 3072) and bias vectors `bx`, `bh` (3072 entries), the 3072 gate pre-activations are
      g n = ((Σ_k xr k · wx k n  +  Σ_k hr k · wh k n) + bx n) + bh n,
  columns 0 .. 1023 feeding the input gate, 1024 .. 2047 the forget gate and 2048 .. 3071 the candidate, and entry
  `j` of the new cell state is
      σ(g (1024 + j)) · cr j  +  σ(g j) · tanh (g (2048 + j)),       σ t = 1 / (1 + e^(−t)).
  The two programs add the four summands of a gate in different orders; addition of extended reals is commutative
  and associative at the infinities too, so either order gives `gate`.
  The wide matrices are three square ones transposed and set side by side: column `n` of row `k` is entry
  `(n mod 1024, k)` of the matrix numbered `n / 1024` (`wide`).
-/
import Idealize.ShloMosaic.PureOps.Ideal
import Idealize.ShloMosaic.Lib.ValueIdx
import proofs.«178243_j33921651704111_1_alg».proof.Proof.LibJoinCols

noncomputable section

namespace Cert.CellSpec

open Idealize.ShloMosaic Idealize.ShloMosaic.ValueIdx Cert.LibJoinCols

/-- Gate pre-activation `n` of one batch row. -/
def gate (xr hr : Fin 1024 → EReal) (wx wh : Fin 1024 → Fin 3072 → EReal) (bx bh : Fin 3072 → EReal) (n : Fin 3072) : EReal :=
  ((∑ k : Fin 1024, xr k * wx k n + ∑ k : Fin 1024, hr k * wh k n) + bx n) + bh n

/-- The same four summands with the first bias added before the second product. -/
theorem gate_bias_first (xr hr : Fin 1024 → EReal) (wx wh : Fin 1024 → Fin 3072 → EReal) (bx bh : Fin 3072 → EReal) (n : Fin 3072) :
    ((∑ k : Fin 1024, xr k * wx k n + bx n) + ∑ k : Fin 1024, hr k * wh k n) + bh n = gate xr hr wx wh bx bh n := by
  unfold gate
  rw [add_right_comm (∑ k : Fin 1024, xr k * wx k n) (bx n)]

/-- Column `o + j` of the gates, for a band of 1024 columns that starts at `o`. -/
def band (g : Fin 3072 → EReal) (o : Nat) (ho : o + 1024 ≤ 3072) (j : Fin 1024) : EReal :=
  g ⟨o + j.val, by have := j.isLt; omega⟩

/-- Entry `j` of the new cell state of one batch row. -/
def rowCell (xr hr cr : Fin 1024 → EReal) (wx wh : Fin 1024 → Fin 3072 → EReal) (bx bh : Fin 3072 → EReal) (j : Fin 1024) : EReal :=
  Ideal.logistic (band (gate xr hr wx wh bx bh) 1024 (by omega) j) * cr j
    + Ideal.logistic (band (gate xr hr wx wh bx bh) 0 (by omega) j) * Ideal.tanh (band (gate xr hr wx wh bx bh) 2048 (by omega) j)

/-- Three square matrices transposed and set side by side: entry `(k, n)`. -/
def wide (w0 w1 w2 : (⟨2, ![1024, 1024]⟩ : Shape).Idx → EReal) (k : Fin 1024) (n : Fin 3072) : EReal :=
  join3 (W₁ := 1024) (W₂ := 1024) (W₃ := 1024) (T := 3072) rfl (fun j => w0 (ix2 j k)) (fun j => w1 (ix2 j k)) (fun j => w2 (ix2 j k)) n

/-- Three vectors laid end to end: entry `n`. -/
def joined (b0 b1 b2 : (⟨1, ![1024]⟩ : Shape).Idx → EReal) (n : Fin 3072) : EReal :=
  join3 (W₁ := 1024) (W₂ := 1024) (W₃ := 1024) (T := 3072) rfl (fun j => b0 (ix1 j)) (fun j => b1 (ix1 j)) (fun j => b2 (ix1 j)) n

/-- The new cell state as one function of the fifteen arguments, over the whole batch. -/
def newCell (x h c : (⟨2, ![16384, 1024]⟩ : Shape).Idx → EReal)
    (w_ii w_hi w_if w_hf w_ig w_hg : (⟨2, ![1024, 1024]⟩ : Shape).Idx → EReal)
    (b_ii b_hi b_if b_hf b_ig b_hg : (⟨1, ![1024]⟩ : Shape).Idx → EReal) : (⟨2, ![16384, 1024]⟩ : Shape).Idx → EReal :=
  fun i => rowCell (fun k => x (ix2 (i 0) k)) (fun k => h (ix2 (i 0) k)) (fun k => c (ix2 (i 0) k))
    (wide w_ii w_if w_ig) (wide w_hi w_hf w_hg) (joined b_ii b_if b_ig) (joined b_hi b_hf b_hg) (i 1)

end Cert.CellSpec

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.CellPayload.lean ====
/-
  What the kernel body computes from its blocks, entry by entry, at the ideal instance.

  At one grid point the body holds 256 rows of `x`, `h` and `c`, the two wide matrices and the two bias vectors.  It
  narrows `x` and `h` (the identity on extended reals), multiplies each by its wide matrix into a zero accumulator,
  adds the two products, then the two bias vectors spread over the 256 rows; the result is the 256 × 3072 block of
  gate pre-activations (`gatesBlock`), whose entry `(p, n)` is the specification's `gate` of rows `p`.  The three
  bands of 1024 columns go through the logistic function, the logistic function and `tanh`, and the stored value is
  forget gate times old cell plus input gate times candidate: the specification's `rowCell` of rows `p`.
-/
import proofs.«178243_j33921651704111_1_alg».proof.Proof.Gen.KernelIdeal.Skeleton
import proofs.«178243_j33921651704111_1_alg».proof.Proof.CellSpec
import proofs.«178243_j33921651704111_1_alg».proof.Proof.LibMatmul
import Idealize.ShloMosaic.Lib.ValueLayout
import Idealize.ShloMosaic.Lib.Pipeline.Value
import Idealize.ShloMosaic.PureOps.Ideal.Laws

noncomputable section

namespace Cert.KernelIdeal.CellPay

open Cert.KernelIdeal Cert.KernelIdeal.Gen Idealize.ShloMosaic Idealize.ShloMosaic.ValueIdx Cert.CellSpec

variable (x h c : Vec Ideal S256x1024 .f32) (wx wh : Vec Ideal S1024x3072 .bf16) (bx bh : Vec Ideal S3072 .f32)

/-- The block of gate pre-activations the body forms from its loads. -/
def gatesBlock : FVec Ideal S256x3072 .f32 :=
  addf (addf (addf
      (matmul dot_S256x1024_S1024x3072_S256x3072_1_0_0_1_n_n none (truncf .bf16 x bitsLt_bf16_f32 : FVec Ideal S256x1024 .bf16)
        (shapeCast S1024x3072 wx shapeCasts_S1024x3072_S1024x3072 : FVec Ideal S1024x3072 .bf16) (constant S256x3072 .f32 0x00000000#32))
      (matmul dot_S256x1024_S1024x3072_S256x3072_1_0_0_1_n_n none (truncf .bf16 h bitsLt_bf16_f32 : FVec Ideal S256x1024 .bf16)
        (shapeCast S1024x3072 wh shapeCasts_S1024x3072_S1024x3072 : FVec Ideal S1024x3072 .bf16) (constant S256x3072 .f32 0x00000000#32)))
      (broadcastTo S256x3072 (shapeCast S1x3072 (shapeCast S3072 bx shapeCasts_S3072_S3072 : FVec Ideal S3072 .f32) shapeCasts_S3072_S1x3072 : FVec Ideal S1x3072 .f32) broadcasts_S1x3072_S256x3072 : FVec Ideal S256x3072 .f32))
    (broadcastTo S256x3072 (shapeCast S1x3072 (shapeCast S3072 bh shapeCasts_S3072_S3072 : FVec Ideal S3072 .f32) shapeCasts_S3072_S1x3072 : FVec Ideal S1x3072 .f32) broadcasts_S1x3072_S256x3072 : FVec Ideal S256x3072 .f32)

/-- The stored value is the gates' three bands through their activations, combined with the old cell state. -/
theorem pay_eq : k0_pay1 (F := Ideal) x h wx wh bx bh c
    = addf (mulf (logistic (extractStridedSlice S256x1024 ![0, 1024] (gatesBlock x h wx wh bx bh) slices_S256x3072_o0_1024_S256x1024)) c)
        (mulf (logistic (extractStridedSlice S256x1024 ![0, 0] (gatesBlock x h wx wh bx bh) slices_S256x3072_o0_0_S256x1024))
          (tanh (extractStridedSlice S256x1024 ![0, 2048] (gatesBlock x h wx wh bx bh) slices_S256x3072_o0_2048_S256x1024))) := rfl

/-- The printed dimension numbers are the plain product's. -/
theorem dims_plain : dot_S256x1024_S1024x3072_S256x3072_1_0_0_1_n_n = DotDims.plain 256 1024 3072 := rfl

/-- Entry `(p, n)` of the gates block is the specification's gate of rows `p`. -/
theorem gatesBlock_apply (p : Fin 256) (n : Fin 3072) :
    gatesBlock x h wx wh bx bh (ix2 p n)
      = gate (fun k => x (ix2 p k)) (fun k => h (ix2 p k)) (fun k n => wx (ix2 k n)) (fun k n => wh (ix2 k n))
          (fun n => bx (ix1 n)) (fun n => bh (ix1 n)) n := by
  unfold gatesBlock gate
  rw [addf_apply, addf_apply, addf_apply, shapeCast_self, shapeCast_self, shapeCast_self, shapeCast_self,
    broadcastTo_1b_ab_apply, broadcastTo_1b_ab_apply, shapeCast_a_1a_apply, shapeCast_a_1a_apply, dims_plain]
  have ex := LibMatmul.matmul_zero_plain_apply (M := 256) (K := 1024) (N := 3072) (φ₁ := .bf16) (φ₂ := .bf16) none
    (truncf .bf16 x bitsLt_bf16_f32 : FVec Ideal S256x1024 .bf16) (wx : FVec Ideal S1024x3072 .bf16) p n
  have eh := LibMatmul.matmul_zero_plain_apply (M := 256) (K := 1024) (N := 3072) (φ₁ := .bf16) (φ₂ := .bf16) none
    (truncf .bf16 h bitsLt_bf16_f32 : FVec Ideal S256x1024 .bf16) (wh : FVec Ideal S1024x3072 .bf16) p n
  exact congrArg₂ (· + ·) (congrArg₂ (· + ·) (congrArg₂ (· + ·) ex eh) rfl) rfl

/-- Entry `(p, q)` of the stored value is the specification's new cell state of rows `p`. -/
theorem pay_apply (p : Fin 256) (q : Fin 1024) :
    k0_pay1 (F := Ideal) x h wx wh bx bh c (ix2 p q)
      = rowCell (fun k => x (ix2 p k)) (fun k => h (ix2 p k)) (fun k => c (ix2 p k)) (fun k n => wx (ix2 k n)) (fun k n => wh (ix2 k n))
          (fun n => bx (ix1 n)) (fun n => bh (ix1 n)) q := by
  rw [pay_eq]
  show Ideal.logistic (extractStridedSlice S256x1024 ![0, 1024] (gatesBlock x h wx wh bx bh) slices_S256x3072_o0_1024_S256x1024 (ix2 p q)) * c (ix2 p q)
      + Ideal.logistic (extractStridedSlice S256x1024 ![0, 0] (gatesBlock x h wx wh bx bh) slices_S256x3072_o0_0_S256x1024 (ix2 p q))
        * Ideal.tanh (extractStridedSlice S256x1024 ![0, 2048] (gatesBlock x h wx wh bx bh) slices_S256x3072_o0_2048_S256x1024 (ix2 p q)) = _
  rw [slice2_axis1_apply 1024 _ _ p q ⟨1024 + q.val, by have := q.isLt; omega⟩ rfl,
    slice2_axis1_apply 0 _ _ p q ⟨0 + q.val, by have := q.isLt; omega⟩ rfl,
    slice2_axis1_apply 2048 _ _ p q ⟨2048 + q.val, by have := q.isLt; omega⟩ rfl,
    gatesBlock_apply, gatesBlock_apply, gatesBlock_apply]
  rfl

end Cert.KernelIdeal.CellPay

end
-- ==== Proof.LibJoinRows.lean ====
/-
  Three matrices stacked one above the other, and three vectors laid end to end, read at an entry.

  Stacking a W₁ × C matrix x on a W₂ × C matrix y on a W₃ × C matrix z along the row axis gives a T × C matrix,
  T = W₁ + W₂ + W₃, whose column k is column k of x, then column k of y, then column k of z: entry (n, k) is x(n, k)
  for n < W₁, y(n − W₁, k) for W₁ ≤ n < W₁ + W₂, and z(n − W₁ − W₂, k) beyond.  Laying three vectors of lengths
  W₁, W₂, W₃ end to end gives the vector of length T with the same three cases.  Both are stated with the three
  parts laid end to end by `join3`, so that a stack of matrices read down a column and a row of matrices joined
  side by side read along a row meet in one form.
  Stated for every widths, every C and every element type.
-/
import Idealize.ShloMosaic.Lib.Pipeline.Value
import Idealize.ShloMosaic.Lib.ValueIdx
import proofs.«178243_j33921651704111_1_alg».proof.Proof.LibJoinCols

noncomputable section

namespace Cert.LibJoinRows

open Idealize.ShloMosaic Idealize.ShloMosaic.ValueIdx Cert.LibJoinCols

variable {α : Type}

/-- Off the row axis an entry of a part and the entry of the stack it lands on have the same coordinate. -/
private theorem col_coord {W T C : Nat} (w : Fin W) (n : Fin T) (k : Fin C)
    (b : Fin (⟨2, ![W, C]⟩ : Shape).rank) (hb : b.cast (rfl : (2 : Nat) = 2) ≠ (0 : Fin 2)) :
    ((ix2 w k : (⟨2, ![W, C]⟩ : Shape).Idx) b).val = ((ix2 n k : (⟨2, ![T, C]⟩ : Shape).Idx) (b.cast rfl)).val := by
  match b with
  | ⟨0, _⟩ => exact absurd rfl hb
  | ⟨1, _⟩ => rfl

/-- The stack of three matrices of `C` columns along the rows, at `(n, k)`: row `n` of the three columns `k` laid
    end to end. -/
theorem concatenate3_rows_apply {C W₁ W₂ W₃ T : Nat} (hT : W₁ + W₂ + W₃ = T)
    (x : (⟨2, ![W₁, C]⟩ : Shape).Idx → α) (y : (⟨2, ![W₂, C]⟩ : Shape).Idx → α) (z : (⟨2, ![W₃, C]⟩ : Shape).Idx → α)
    (h : Shape.Concatenates
      (([⟨⟨2, ![W₁, C]⟩, x⟩, ⟨⟨2, ![W₂, C]⟩, y⟩, ⟨⟨2, ![W₃, C]⟩, z⟩] : List ((s : Shape) × (s.Idx → α))).map (·.1))
      ⟨2, ![T, C]⟩ 0)
    (n : Fin T) (k : Fin C) :
    concatenate ⟨2, ![T, C]⟩ 0 [⟨⟨2, ![W₁, C]⟩, x⟩, ⟨⟨2, ![W₂, C]⟩, y⟩, ⟨⟨2, ![W₃, C]⟩, z⟩] h (ix2 n k)
      = join3 hT (fun j => x (ix2 j k)) (fun j => y (ix2 j k)) (fun j => z (ix2 j k)) n := by
  unfold join3
  split
  · rename_i h1
    exact concatenate_apply_piece 0 _ h (ix2 n k) 0 (by simp) ⟨2, ![W₁, C]⟩ x rfl rfl 0 rfl
      (ix2 ⟨n.val, h1⟩ k) (col_coord _ n k) (by show 0 + n.val = n.val; omega)
  · rename_i h1
    split
    · rename_i h2
      exact concatenate_apply_piece 0 _ h (ix2 n k) 1 (by simp) ⟨2, ![W₂, C]⟩ y rfl rfl W₁ (by simp)
        (ix2 ⟨n.val - W₁, by omega⟩ k) (col_coord _ n k) (by show W₁ + (n.val - W₁) = n.val; omega)
    · rename_i h2
      exact concatenate_apply_piece 0 _ h (ix2 n k) 2 (by simp) ⟨2, ![W₃, C]⟩ z rfl rfl (W₁ + W₂) (by simp)
        (ix2 ⟨n.val - (W₁ + W₂), by have := n.isLt; omega⟩ k) (col_coord _ n k)
        (by show W₁ + W₂ + (n.val - (W₁ + W₂)) = n.val; omega)

/-- A vector has no coordinate off its one axis. -/
private theorem no_coord {W T : Nat} (w : Fin W) (n : Fin T)
    (b : Fin (⟨1, ![W]⟩ : Shape).rank) (hb : b.cast (rfl : (1 : Nat) = 1) ≠ (0 : Fin 1)) :
    ((ix1 w : (⟨1, ![W]⟩ : Shape).Idx) b).val = ((ix1 n : (⟨1, ![T]⟩ : Shape).Idx) (b.cast rfl)).val := by
  match b with
  | ⟨0, _⟩ => exact absurd rfl hb

/-- Three vectors laid end to end, at `n`. -/
theorem concatenate3_vec_apply {W₁ W₂ W₃ T : Nat} (hT : W₁ + W₂ + W₃ = T)
    (x : (⟨1, ![W₁]⟩ : Shape).Idx → α) (y : (⟨1, ![W₂]⟩ : Shape).Idx → α) (z : (⟨1, ![W₃]⟩ : Shape).Idx → α)
    (h : Shape.Concatenates
      (([⟨⟨1, ![W₁]⟩, x⟩, ⟨⟨1, ![W₂]⟩, y⟩, ⟨⟨1, ![W₃]⟩, z⟩] : List ((s : Shape) × (s.Idx → α))).map (·.1))
      ⟨1, ![T]⟩ 0)
    (n : Fin T) :
    concatenate ⟨1, ![T]⟩ 0 [⟨⟨1, ![W₁]⟩, x⟩, ⟨⟨1, ![W₂]⟩, y⟩, ⟨⟨1, ![W₃]⟩, z⟩] h (ix1 n)
      = join3 hT (fun j => x (ix1 j)) (fun j => y (ix1 j)) (fun j => z (ix1 j)) n := by
  unfold join3
  split
  · rename_i h1
    exact concatenate_apply_piece 0 _ h (ix1 n) 0 (by simp) ⟨1, ![W₁]⟩ x rfl rfl 0 rfl
      (ix1 ⟨n.val, h1⟩) (no_coord _ n) (by show 0 + n.val = n.val; omega)
  · rename_i h1
    split
    · rename_i h2
      exact concatenate_apply_piece 0 _ h (ix1 n) 1 (by simp) ⟨1, ![W₂]⟩ y rfl rfl W₁ (by simp)
        (ix1 ⟨n.val - W₁, by omega⟩) (no_coord _ n) (by show W₁ + (n.val - W₁) = n.val; omega)
    · rename_i h2
      exact concatenate_apply_piece 0 _ h (ix1 n) 2 (by simp) ⟨1, ![W₃]⟩ z rfl rfl (W₁ + W₂) (by simp)
        (ix1 ⟨n.val - (W₁ + W₂), by have := n.isLt; omega⟩) (no_coord _ n)
        (by show W₁ + W₂ + (n.val - (W₁ + W₂)) = n.val; omega)

end Cert.LibJoinRows

end
-- ==== Proof.CellValue.lean ====
/-
  The kernel's result array, after the run, is the specification's new cell state of the fifteen arguments.

  The output window's block at grid point `t` is rows `256 t .. 256 t + 255` of the result, all 1024 columns, and
  the 64 points tile the 16384 rows.  At point `t` the three row windows hold the same rows of `x`, `h` and `c`, and
  the four whole-array windows hold what the host prefix made: the two wide matrices (three transposed square
  matrices side by side, narrowed, which changes nothing on extended reals) and the two joined bias vectors.  So the
  value the body stores at `(p, q)` of its block, the specification's `rowCell` of the blocks' rows `p`, is the
  specification's `newCell` at `(256 t + p, q)`; every point writes its block of one whole-array function, and the
  blocks cover the array.
-/
import proofs.«178243_j33921651704111_1_alg».proof.Proof.CellFrameIdeal
import proofs.«178243_j33921651704111_1_alg».proof.Proof.CellPayload
import proofs.«178243_j33921651704111_1_alg».proof.Proof.LibJoinRows
import Idealize.ShloMosaic.Lib.Pipeline.Value
import Idealize.ShloMosaic.Lib.StableHlo.Run
import Idealize.ShloMosaic.Lib.ValueLayout

set_option maxRecDepth 16384

noncomputable section

namespace Cert.KernelIdeal.CellValue

open Cert.KernelIdeal Cert.KernelIdeal.Gen Cert.KernelIdeal.Cell Cert.KernelIdeal.CellPay
open Idealize.ShloMosaic Idealize.ShloMosaic.TcCoe Idealize.SL.Sem Idealize.ShloMosaic.ValueIdx Idealize.ShloMosaic.StableHlo
open Idealize.ShloMosaic.Pipeline (Dat)
open Cert.CellSpec Cert.LibJoinCols Cert.LibJoinRows

variable (m : (ℓ : Loc nD τ sig) → Buf (Elt Ideal) ℓ) (ρ : Dev nD → PrngReg)

/-! ## What the host prefix made -/

/-- The input-side wide matrix as the region finds it: the three transposed weights side by side. -/
theorem entry_wx (c : Dev nD) (k : Fin 1024) (n : Fin 3072) :
    (entry m c main_v4 : S1024x3072.Idx → EReal) (ix2 k n) = wide (m ((c : Thread nD τ).loc main_arg3)) (m ((c : Thread nD τ).loc main_arg7)) (m ((c : Thread nD τ).loc main_arg11)) k n := by
  have e : (entry m c main_v4 : S1024x3072.Idx → EReal)
      = truncf (F := Ideal) .bf16 (concatenate S1024x3072 1
          [⟨S1024x1024, transpose S1024x1024 [1, 0] (m ((c : Thread nD τ).loc main_arg3)) transposes_S1024x1024_S1024x1024_1_0⟩,
           ⟨S1024x1024, transpose S1024x1024 [1, 0] (m ((c : Thread nD τ).loc main_arg7)) transposes_S1024x1024_S1024x1024_1_0⟩,
           ⟨S1024x1024, transpose S1024x1024 [1, 0] (m ((c : Thread nD τ).loc main_arg11)) transposes_S1024x1024_S1024x1024_1_0⟩]
          concatenates_S1024x1024_S1024x1024_S1024x1024_S1024x3072_d1) bitsLt_bf16_f32 := by
    dsimp only [entry, hostOps0]; after_results; rfl
  rw [e]
  unfold wide
  refine (concatenate3_apply (W₁ := 1024) (W₂ := 1024) (W₃ := 1024) (T := 3072) rfl
    (transpose S1024x1024 [1, 0] (m ((c : Thread nD τ).loc main_arg3)) transposes_S1024x1024_S1024x1024_1_0)
    (transpose S1024x1024 [1, 0] (m ((c : Thread nD τ).loc main_arg7)) transposes_S1024x1024_S1024x1024_1_0)
    (transpose S1024x1024 [1, 0] (m ((c : Thread nD τ).loc main_arg11)) transposes_S1024x1024_S1024x1024_1_0)
    concatenates_S1024x1024_S1024x1024_S1024x1024_S1024x3072_d1 k n).trans ?_
  rw [(show (fun j : Fin 1024 => transpose S1024x1024 [1, 0] (m ((c : Thread nD τ).loc main_arg3)) transposes_S1024x1024_S1024x1024_1_0 (ix2 k j)) = (fun j : Fin 1024 => ((m ((c : Thread nD τ).loc main_arg3)) : S1024x1024.Idx → EReal) (ix2 j k))
      from funext fun j => transpose_ix2_apply _ _ k j),
    (show (fun j : Fin 1024 => transpose S1024x1024 [1, 0] (m ((c : Thread nD τ).loc main_arg7)) transposes_S1024x1024_S1024x1024_1_0 (ix2 k j)) = (fun j : Fin 1024 => ((m ((c : Thread nD τ).loc main_arg7)) : S1024x1024.Idx → EReal) (ix2 j k))
      from funext fun j => transpose_ix2_apply _ _ k j),
    (show (fun j : Fin 1024 => transpose S1024x1024 [1, 0] (m ((c : Thread nD τ).loc main_arg11)) transposes_S1024x1024_S1024x1024_1_0 (ix2 k j)) = (fun j : Fin 1024 => ((m ((c : Thread nD τ).loc main_arg11)) : S1024x1024.Idx → EReal) (ix2 j k))
      from funext fun j => transpose_ix2_apply _ _ k j)]

/-- The hidden-side wide matrix as the region finds it. -/
theorem entry_wh (c : Dev nD) (k : Fin 1024) (n : Fin 3072) :
    (entry m c main_v9 : S1024x3072.Idx → EReal) (ix2 k n) = wide (m ((c : Thread nD τ).loc main_arg5)) (m ((c : Thread nD τ).loc main_arg9)) (m ((c : Thread nD τ).loc main_arg13)) k n := by
  have e : (entry m c main_v9 : S1024x3072.Idx → EReal)
      = truncf (F := Ideal) .bf16 (concatenate S1024x3072 1
          [⟨S1024x1024, transpose S1024x1024 [1, 0] (m ((c : Thread nD τ).loc main_arg5)) transposes_S1024x1024_S1024x1024_1_0⟩,
           ⟨S1024x1024, transpose S1024x1024 [1, 0] (m ((c : Thread nD τ).loc main_arg9)) transposes_S1024x1024_S1024x1024_1_0⟩,
           ⟨S1024x1024, transpose S1024x1024 [1, 0] (m ((c : Thread nD τ).loc main_arg13)) transposes_S1024x1024_S1024x1024_1_0⟩]
          concatenates_S1024x1024_S1024x1024_S1024x1024_S1024x3072_d1) bitsLt_bf16_f32 := by
    dsimp only [entry, hostOps0]; after_results; rfl
  rw [e]
  unfold wide
  refine (concatenate3_apply (W₁ := 1024) (W₂ := 1024) (W₃ := 1024) (T := 3072) rfl
    (transpose S1024x1024 [1, 0] (m ((c : Thread nD τ).loc main_arg5)) transposes_S1024x1024_S1024x1024_1_0)
    (transpose S1024x1024 [1, 0] (m ((c : Thread nD τ).loc main_arg9)) transposes_S1024x1024_S1024x1024_1_0)
    (transpose S1024x1024 [1, 0] (m ((c : Thread nD τ).loc main_arg13)) transposes_S1024x1024_S1024x1024_1_0)
    concatenates_S1024x1024_S1024x1024_S1024x1024_S1024x3072_d1 k n).trans ?_
  rw [(show (fun j : Fin 1024 => transpose S1024x1024 [1, 0] (m ((c : Thread nD τ).loc main_arg5)) transposes_S1024x1024_S1024x1024_1_0 (ix2 k j)) = (fun j : Fin 1024 => ((m ((c : Thread nD τ).loc main_arg5)) : S1024x1024.Idx → EReal) (ix2 j k))
      from funext fun j => transpose_ix2_apply _ _ k j),
    (show (fun j : Fin 1024 => transpose S1024x1024 [1, 0] (m ((c : Thread nD τ).loc main_arg9)) transposes_S1024x1024_S1024x1024_1_0 (ix2 k j)) = (fun j : Fin 1024 => ((m ((c : Thread nD τ).loc main_arg9)) : S1024x1024.Idx → EReal) (ix2 j k))
      from funext fun j => transpose_ix2_apply _ _ k j),
    (show (fun j : Fin 1024 => transpose S1024x1024 [1, 0] (m ((c : Thread nD τ).loc main_arg13)) transposes_S1024x1024_S1024x1024_1_0 (ix2 k j)) = (fun j : Fin 1024 => ((m ((c : Thread nD τ).loc main_arg13)) : S1024x1024.Idx → EReal) (ix2 j k))
      from funext fun j => transpose_ix2_apply _ _ k j)]

/-- The input-side joined bias as the region finds it. -/
theorem entry_bx (c : Dev nD) (n : Fin 3072) :
    (entry m c main_v10 : S3072.Idx → EReal) (ix1 n) = joined (m ((c : Thread nD τ).loc main_arg4)) (m ((c : Thread nD τ).loc main_arg8)) (m ((c : Thread nD τ).loc main_arg12)) n := by
  have e : (entry m c main_v10 : S3072.Idx → EReal)
      = concatenate S3072 0 [⟨S1024, (m ((c : Thread nD τ).loc main_arg4))⟩, ⟨S1024, (m ((c : Thread nD τ).loc main_arg8))⟩, ⟨S1024, (m ((c : Thread nD τ).loc main_arg12))⟩] concatenates_S1024_S1024_S1024_S3072_d0 := by
    dsimp only [entry, hostOps0]; after_results; rfl
  rw [e]
  unfold joined
  exact concatenate3_vec_apply (W₁ := 1024) (W₂ := 1024) (W₃ := 1024) (T := 3072) rfl (m ((c : Thread nD τ).loc main_arg4)) (m ((c : Thread nD τ).loc main_arg8)) (m ((c : Thread nD τ).loc main_arg12)) _ n

/-- The hidden-side joined bias as the region finds it. -/
theorem entry_bh (c : Dev nD) (n : Fin 3072) :
    (entry m c main_v11 : S3072.Idx → EReal) (ix1 n) = joined (m ((c : Thread nD τ).loc main_arg6)) (m ((c : Thread nD τ).loc main_arg10)) (m ((c : Thread nD τ).loc main_arg14)) n := by
  have e : (entry m c main_v11 : S3072.Idx → EReal)
      = concatenate S3072 0 [⟨S1024, (m ((c : Thread nD τ).loc main_arg6))⟩, ⟨S1024, (m ((c : Thread nD τ).loc main_arg10))⟩, ⟨S1024, (m ((c : Thread nD τ).loc main_arg14))⟩] concatenates_S1024_S1024_S1024_S3072_d0 := by
    dsimp only [entry, hostOps0]; after_results; rfl
  rw [e]
  unfold joined
  exact concatenate3_vec_apply (W₁ := 1024) (W₂ := 1024) (W₃ := 1024) (T := 3072) rfl (m ((c : Thread nD τ).loc main_arg6)) (m ((c : Thread nD τ).loc main_arg10)) (m ((c : Thread nD τ).loc main_arg14)) _ n

/-! ## The windows' blocks at a grid point -/

/-- The grid has 64 points. -/
theorem point_lt (t : Fin cfg0.N) : t.val < 64 := lt_of_lt_of_eq t.isLt N_0

/-- The printed index maps over the grid: the row windows and the output sit at block row `t`, the whole-array
    windows at block zero. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ win0_6.index t (0 : Fin 1) = 0
    ∧ (win0_7.index t (0 : Fin 2) = t.val ∧ win0_7.index t (1 : Fin 2) = 0) :=
  (by decide +kernel : ∀ t : Fin grid0.N, _)

/-- Row `p` of the `x` window's block at point `t` is row `256 t + p` of `x`. -/
theorem x_rows (c : Dev nD) (t : Fin cfg0.N) (p : Fin 256) (hb : 256 * t.val + p.val < 16384) (k : Fin 1024) :
    (blockAt m c 0 t : Vec Ideal S256x1024 .f32) (ix2 p k) = ((m ((c : Thread nD τ).loc main_arg0)) : S16384x1024.Idx → EReal) (ix2 ⟨256 * t.val + p.val, hb⟩ k) := by
  obtain ⟨⟨h0, h1⟩, -⟩ := index_facts t
  unfold blockAt
  rw [View.read_apply]
  show entry m c main_arg0 _ = _
  rw [entry_arg0]
  congr 1
  funext a; apply Fin.ext
  match a with
  | ⟨0, _⟩ => show win0_0.index t (0 : Fin 2) * 256 + 1 * p.val = 256 * t.val + p.val; rw [h0]; omega
  | ⟨1, _⟩ => show win0_0.index t (1 : Fin 2) * 1024 + 1 * k.val = k.val; rw [h1]; omega

/-- Row `p` of the `h` window's block at point `t` is row `256 t + p` of `h`. -/
theorem h_rows (c : Dev nD) (t : Fin cfg0.N) (p : Fin 256) (hb : 256 * t.val + p.val < 16384) (k : Fin 1024) :
    (blockAt m c 1 t : Vec Ideal S256x1024 .f32) (ix2 p k) = ((m ((c : Thread nD τ).loc main_arg1)) : S16384x1024.Idx → EReal) (ix2 ⟨256 * t.val + p.val, hb⟩ k) := by
  obtain ⟨-, ⟨h0, h1⟩, -⟩ := index_facts t
  unfold blockAt
  rw [View.read_apply]
  show entry m c main_arg1 _ = _
  rw [entry_arg1]
  congr 1
  funext a; apply Fin.ext
  match a with
  | ⟨0, _⟩ => show win0_1.index t (0 : Fin 2) * 256 + 1 * p.val = 256 * t.val + p.val; rw [h0]; omega
  | ⟨1, _⟩ => show win0_1.index t (1 : Fin 2) * 1024 + 1 * k.val = k.val; rw [h1]; omega

/-- Row `p` of the `c` window's block at point `t` is row `256 t + p` of `c`. -/
theorem c_rows (c : Dev nD) (t : Fin cfg0.N) (p : Fin 256) (hb : 256 * t.val + p.val < 16384) (k : Fin 1024) :
    (blockAt m c 2 t : Vec Ideal S256x1024 .f32) (ix2 p k) = ((m ((c : Thread nD τ).loc main_arg2)) : S16384x1024.Idx → EReal) (ix2 ⟨256 * t.val + p.val, hb⟩ k) := by
  obtain ⟨-, -, ⟨h0, h1⟩, -⟩ := index_facts t
  unfold blockAt
  rw [View.read_apply]
  show entry m c main_arg2 _ = _
  rw [entry_arg2]
  congr 1
  funext a; apply Fin.ext
  match a with
  | ⟨0, _⟩ => show win0_2.index t (0 : Fin 2) * 256 + 1 * p.val = 256 * t.val + p.val; rw [h0]; omega
  | ⟨1, _⟩ => show win0_2.index t (1 : Fin 2) * 1024 + 1 * k.val = k.val; rw [h1]; omega

/-- The input-side wide window's block is the whole wide matrix. -/
theorem wx_block (c : Dev nD) (t : Fin cfg0.N) (k : Fin 1024) (n : Fin 3072) :
    (blockAt m c 3 t : Vec Ideal S1024x3072 .bf16) (ix2 k n) = wide (m ((c : Thread nD τ).loc main_arg3)) (m ((c : Thread nD τ).loc main_arg7)) (m ((c : Thread nD τ).loc main_arg11)) k n := by
  obtain ⟨-, -, -, ⟨h0, h1⟩, -⟩ := index_facts t
  rw [← entry_wx m c k n]
  unfold blockAt
  rw [View.read_apply]
  show entry m c main_v4 _ = _
  congr 1
  funext a; apply Fin.ext
  match a with
  | ⟨0, _⟩ => show win0_3.index t (0 : Fin 2) * 1024 + 1 * k.val = k.val; rw [h0]; omega
  | ⟨1, _⟩ => show win0_3.index t (1 : Fin 2) * 3072 + 1 * n.val = n.val; rw [h1]; omega

/-- The hidden-side wide window's block is the whole wide matrix. -/
theorem wh_block (c : Dev nD) (t : Fin cfg0.N) (k : Fin 1024) (n : Fin 3072) :
    (blockAt m c 4 t : Vec Ideal S1024x3072 .bf16) (ix2 k n) = wide (m ((c : Thread nD τ).loc main_arg5)) (m ((c : Thread nD τ).loc main_arg9)) (m ((c : Thread nD τ).loc main_arg13)) k n := by
  obtain ⟨-, -, -, -, ⟨h0, h1⟩, -⟩ := index_facts t
  rw [← entry_wh m c k n]
  unfold blockAt
  rw [View.read_apply]
  show entry m c main_v9 _ = _
  congr 1
  funext a; apply Fin.ext
  match a with
  | ⟨0, _⟩ => show win0_4.index t (0 : Fin 2) * 1024 + 1 * k.val = k.val; rw [h0]; omega
  | ⟨1, _⟩ => show win0_4.index t (1 : Fin 2) * 3072 + 1 * n.val = n.val; rw [h1]; omega

/-- The input-side bias window's block is the whole joined bias. -/
theorem bx_block (c : Dev nD) (t : Fin cfg0.N) (n : Fin 3072) :
    (blockAt m c 5 t : Vec Ideal S3072 .f32) (ix1 n) = joined (m ((c : Thread nD τ).loc main_arg4)) (m ((c : Thread nD τ).loc main_arg8)) (m ((c : Thread nD τ).loc main_arg12)) n := by
  obtain ⟨-, -, -, -, -, h0, -⟩ := index_facts t
  rw [← entry_bx m c n]
  unfold blockAt
  rw [View.read_apply]
  show entry m c main_v10 _ = _
  congr 1
  funext a; apply Fin.ext
  match a with
  | ⟨0, _⟩ => show win0_5.index t (0 : Fin 1) * 3072 + 1 * n.val = n.val; rw [h0]; omega

/-- The hidden-side bias window's block is the whole joined bias. -/
theorem bh_block (c : Dev nD) (t : Fin cfg0.N) (n : Fin 3072) :
    (blockAt m c 6 t : Vec Ideal S3072 .f32) (ix1 n) = joined (m ((c : Thread nD τ).loc main_arg6)) (m ((c : Thread nD τ).loc main_arg10)) (m ((c : Thread nD τ).loc main_arg14)) n := by
  obtain ⟨-, -, -, -, -, -, h0, -⟩ := index_facts t
  rw [← entry_bh m c n]
  unfold blockAt
  rw [View.read_apply]
  show entry m c main_v11 _ = _
  congr 1
  funext a; apply Fin.ext
  match a with
  | ⟨0, _⟩ => show win0_6.index t (0 : Fin 1) * 3072 + 1 * n.val = n.val; rw [h0]; omega

/-! ## The result array -/

/-- The new cell state of the fifteen arguments as launched. -/
def result (c : Dev nD) : Buf (Elt Ideal) ((c : Thread nD τ).loc main_v12) :=
  newCell (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13))
    (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14))

/-- One batch row's new cell state depends on its operands entry by entry. -/
theorem rowCell_congr {xr xr' hr hr' cr cr' : Fin 1024 → EReal} {wx wx' wh wh' : Fin 1024 → Fin 3072 → EReal} {bx bx' bh bh' : Fin 3072 → EReal}
    (e1 : ∀ k, xr k = xr' k) (e2 : ∀ k, hr k = hr' k) (e3 : ∀ k, cr k = cr' k) (e4 : ∀ k n, wx k n = wx' k n) (e5 : ∀ k n, wh k n = wh' k n)
    (e6 : ∀ n, bx n = bx' n) (e7 : ∀ n, bh n = bh' n) (j : Fin 1024) :
    rowCell xr hr cr wx wh bx bh j = rowCell xr' hr' cr' wx' wh' bx' bh' j := by
  rw [funext e1, funext e2, funext e3, show wx = wx' from funext fun k => funext (e4 k), show wh = wh' from funext fun k => funext (e5 k),
    funext e6, funext e7]

theorem hz2 : (![0, 0] : Fin 2 → Nat) = fun _ => 0 := funext fun a => by fin_cases a <;> rfl
theorem hz1 : (![0] : Fin 1 → Nat) = fun _ => 0 := funext fun a => by fin_cases a; rfl

/-- Entry `y` of what the body stores at point `t` is the result at the array index the output block sends `y` to. -/
theorem stored_entry (c : Dev nD) (t : Fin cfg0.N) (y : S256x1024.Idx) :
    k0_pay1 (F := Ideal) (blockAt m c 0 t) (blockAt m c 1 t) (blockAt m c 3 t) (blockAt m c 4 t) (blockAt m c 5 t) (blockAt m c 6 t) (blockAt m c 2 t) y
      = (result m c : S16384x1024.Idx → EReal) (((cfg0.win 7).blk t).view.emb y) := by
  obtain ⟨p, q, rfl⟩ : ∃ (p : Fin 256) (q : Fin 1024), y = ix2 p q := ⟨y 0, y 1, eq_ix2 y⟩
  obtain ⟨-, -, -, -, -, -, -, ⟨h0, h1⟩⟩ := index_facts t
  have ht := point_lt t
  have hb : 256 * t.val + p.val < 16384 := by have := p.isLt; omega
  have hemb : ((cfg0.win 7).blk t).view.emb (ix2 p q) = (ix2 ⟨256 * t.val + p.val, hb⟩ q : S16384x1024.Idx) := by
    funext a; apply Fin.ext
    match a with
    | ⟨0, _⟩ => show win0_7.index t (0 : Fin 2) * 256 + 1 * p.val = 256 * t.val + p.val; rw [h0]; omega
    | ⟨1, _⟩ => show win0_7.index t (1 : Fin 2) * 1024 + 1 * q.val = q.val; rw [h1]; omega
  rw [hemb, pay_apply]
  unfold result newCell
  exact rowCell_congr (fun k => x_rows m c t p hb k) (fun k => h_rows m c t p hb k) (fun k => c_rows m c t p hb k)
    (fun k n => wx_block m c t k n) (fun k n => wh_block m c t k n) (fun n => bx_block m c t n) (fun n => bh_block m c t n) q

/-- What point `t` writes back is block `t` of the result. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after_out]
  unfold cellBlock
  rw [View.canon_unit_zero hz2]
  simp only [View.ld_unit_zero (S := S256x1024) hz2, View.ld_unit_zero (S := S1024x3072) hz2, View.ld_unit_zero (S := S3072) hz1]
  funext y
  exact stored_entry m c t y

/-- An index of the array is in point `t`'s block iff each coordinate is in the block's range on its axis. -/
theorem mem_blk (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v12).slice (win0_7.rect t)).set ↔ _
  rw [View.set_slice_whole, Rect.mem_set_unit]
  exact Iff.rfl

/-- The 64 blocks cover the array: row `r` is in the block of point `r / 256`. -/
theorem covered (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  refine ⟨⟨(i 0).val / 256, by rw [hN]; omega⟩, flush0_7 _, ?_⟩
  obtain ⟨-, -, -, -, -, -, -, ⟨h0, h1⟩⟩ := index_facts ⟨(i 0).val / 256, by rw [hN]; omega⟩
  rw [mem_blk]
  intro a
  match a with
  | ⟨0, _⟩ =>
    show win0_7.index _ (0 : Fin 2) * 256 ≤ (i 0).val ∧ (i 0).val < win0_7.index _ (0 : Fin 2) * 256 + 256
    rw [h0]; show (i 0).val / 256 * 256 ≤ (i 0).val ∧ (i 0).val < (i 0).val / 256 * 256 + 256; omega
  | ⟨1, _⟩ =>
    show win0_7.index _ (1 : Fin 2) * 1024 ≤ (i 1).val ∧ (i 1).val < win0_7.index _ (1 : Fin 2) * 1024 + 1024
    rw [h1]; omega

/-- The result array after the run. -/
theorem final (c : Dev nD) : (dats m 0 c).arrAt 7 cfg0.N = result m c :=
  (dats m 0 c).arrAt_eq_of_cover 7 (result m c) (fun t _ => flushed_eq m c t) covered

/-- The run, read: the result array at the specification's new cell state, the fifteen arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 7).trans (final m c), kept_at m (dats m) (dats_A m) r h c⟩) (run_main m ρ)

end Cert.KernelIdeal.CellValue

end
-- ==== Proof.RefCell.lean ====
/-
  The reference computes the new cell state: its result array, read entry by entry, is `CellSpec.newCell` of the
  fifteen arguments.

  The reference stacks the three input-side weight matrices one above the other and transposes the stack, so entry
  `(k, n)` of what it multiplies by is entry `(n, k)` of the stack: the wide matrix of the specification.  Each of its
  two products is a sum over the 1024 shared columns; the joined bias vectors are spread over the batch rows; the gate
  pre-activation adds them in the order product, bias, product, bias.  It writes the logistic function out as
  `1 / (1 + e^(−t))` with the constant one broadcast from a scalar, which over the extended reals is the logistic
  function itself, and finishes with the same two products and sum as the specification.
-/
import proofs.«178243_j33921651704111_1_alg».proof.Proof.Gen.ReferenceIdeal.Read
import proofs.«178243_j33921651704111_1_alg».proof.Proof.CellSpec
import proofs.«178243_j33921651704111_1_alg».proof.Proof.LibJoinRows
import Idealize.ShloMosaic.Lib.IdealHost

noncomputable section

namespace Cert.ReferenceIdeal.RefCell

open Cert.ReferenceIdeal Cert.ReferenceIdeal.Read Idealize.ShloMosaic Idealize.ShloMosaic.ValueIdx
open Cert.CellSpec Cert.LibJoinCols Cert.LibJoinRows

variable (x0 x1 x2 : (⟨S16384x1024, .f32⟩ : BufTy).Contents (Elt Ideal))
variable (x3 x5 x7 x9 x11 x13 : (⟨S1024x1024, .f32⟩ : BufTy).Contents (Elt Ideal))
variable (x4 x6 x8 x10 x12 x14 : (⟨S1024, .f32⟩ : BufTy).Contents (Elt Ideal))

/-- The transposed stack of the input-side weights is the wide matrix. -/
theorem wx_ref (k : Fin 1024) (n : Fin 3072) : val_main_v4 (F := Ideal) x3 x7 x11 (ix2 k n) = wide x3 x7 x11 k n := by
  rw [val_main_v4_apply]
  have e : idx_main_v4 (ix2 k n) = ix2 n k := funext fun a => match a with | ⟨0, _⟩ => rfl | ⟨1, _⟩ => rfl
  rw [e]
  unfold val_main_v0 wide
  exact concatenate3_rows_apply rfl x3 x7 x11 _ n k

/-- The transposed stack of the hidden-side weights is the wide matrix. -/
theorem wh_ref (k : Fin 1024) (n : Fin 3072) : val_main_v9 (F := Ideal) x5 x9 x13 (ix2 k n) = wide x5 x9 x13 k n := by
  rw [val_main_v9_apply]
  have e : idx_main_v9 (ix2 k n) = ix2 n k := funext fun a => match a with | ⟨0, _⟩ => rfl | ⟨1, _⟩ => rfl
  rw [e]
  unfold val_main_v1 wide
  exact concatenate3_rows_apply rfl x5 x9 x13 _ n k

/-- The input-side product at `(r, n)`: row `r` of `x` against column `n` of the wide matrix. -/
theorem mmx_ref (r : Fin 16384) (n : Fin 3072) :
    val_main_v5 (F := Ideal) x0 x3 x7 x11 (ix2 r n) = ∑ k : Fin 1024, x0 (ix2 r k) * wide x3 x7 x11 k n := by
  rw [val_main_v5_apply]
  refine Finset.sum_congr rfl fun k _ => ?_
  have el : lidx_main_v5 (ix2 r n) k = ix2 r k := funext fun a => match a with | ⟨0, _⟩ => rfl | ⟨1, _⟩ => rfl
  have er : ridx_main_v5 (ix2 r n) k = ix2 k n := funext fun a => match a with | ⟨0, _⟩ => rfl | ⟨1, _⟩ => rfl
  rw [el, er, wx_ref]

/-- The hidden-side product at `(r, n)`. -/
theorem mmh_ref (r : Fin 16384) (n : Fin 3072) :
    val_main_v10 (F := Ideal) x1 x5 x9 x13 (ix2 r n) = ∑ k : Fin 1024, x1 (ix2 r k) * wide x5 x9 x13 k n := by
  rw [val_main_v10_apply]
  refine Finset.sum_congr rfl fun k _ => ?_
  have el : lidx_main_v10 (ix2 r n) k = ix2 r k := funext fun a => match a with | ⟨0, _⟩ => rfl | ⟨1, _⟩ => rfl
  have er : ridx_main_v10 (ix2 r n) k = ix2 k n := funext fun a => match a with | ⟨0, _⟩ => rfl | ⟨1, _⟩ => rfl
  rw [el, er, wh_ref]

/-- The input-side bias spread over the batch rows, at `(r, n)`. -/
theorem bx_ref (r : Fin 16384) (n : Fin 3072) : val_main_v7 (F := Ideal) x4 x8 x12 (ix2 r n) = joined x4 x8 x12 n := by
  rw [val_main_v7_apply, val_main_v6_apply]
  have e : idx_main_v6 (idx_main_v7 (ix2 r n)) = ix1 n := funext fun a => match a with | ⟨0, _⟩ => rfl
  rw [e]
  unfold val_main_v2 joined
  exact concatenate3_vec_apply rfl x4 x8 x12 _ n

/-- The hidden-side bias spread over the batch rows, at `(r, n)`. -/
theorem bh_ref (r : Fin 16384) (n : Fin 3072) : val_main_v13 (F := Ideal) x6 x10 x14 (ix2 r n) = joined x6 x10 x14 n := by
  rw [val_main_v13_apply, val_main_v12_apply]
  have e : idx_main_v12 (idx_main_v13 (ix2 r n)) = ix1 n := funext fun a => match a with | ⟨0, _⟩ => rfl
  rw [e]
  unfold val_main_v3 joined
  exact concatenate3_vec_apply rfl x6 x10 x14 _ n

/-- The reference's gate pre-activations are the specification's. -/
theorem gates_ref (r : Fin 16384) (n : Fin 3072) :
    val_main_v14 (F := Ideal) x0 x1 x3 x4 x5 x6 x7 x8 x9 x10 x11 x12 x13 x14 (ix2 r n)
      = gate (fun k => x0 (ix2 r k)) (fun k => x1 (ix2 r k)) (wide x3 x7 x11) (wide x5 x9 x13) (joined x4 x8 x12) (joined x6 x10 x14) n := by
  rw [val_main_v14_apply, val_main_v11_apply, val_main_v8_apply, mmx_ref, mmh_ref, bx_ref, bh_ref]
  exact gate_bias_first _ _ _ _ _ _ n

/-- The scalar one, broadcast. -/
theorem one20 (i : S16384x1024.Idx) : val_main_v20 (F := Ideal) i = 1 := by
  rw [val_main_v20_apply, val_main_cst_apply]; exact Ideal.ofBits_one_f32
theorem one22 (i : S16384x1024.Idx) : val_main_v22 (F := Ideal) i = 1 := by
  rw [val_main_v22_apply, val_main_cst_0_apply]; exact Ideal.ofBits_one_f32
theorem one26 (i : S16384x1024.Idx) : val_main_v26 (F := Ideal) i = 1 := by
  rw [val_main_v26_apply, val_main_cst_1_apply]; exact Ideal.ofBits_one_f32
theorem one28 (i : S16384x1024.Idx) : val_main_v28 (F := Ideal) i = 1 := by
  rw [val_main_v28_apply, val_main_cst_2_apply]; exact Ideal.ofBits_one_f32

/-- `1 / (1 + e^(−t))` in the host's operations is the logistic function. -/
theorem sigmoid_ref (t : Ideal .f32) :
    FloatOps.hostDivf (1 : Ideal .f32) (FloatOps.addf 1 (FloatOps.hostUnary .exp (FloatOps.hostNegf t))) = Ideal.logistic t := rfl

/-- The reference's result array is the specification's new cell state. -/
theorem result_eq :
    val_main_v33 (F := Ideal) x0 x1 x2 x3 x4 x5 x6 x7 x8 x9 x10 x11 x12 x13 x14
      = newCell x0 x1 x2 x3 x5 x7 x9 x11 x13 x4 x6 x8 x10 x12 x14 := by
  funext i
  obtain ⟨r, j, rfl⟩ : ∃ (r : Fin 16384) (j : Fin 1024), i = ix2 r j := ⟨i 0, i 1, eq_ix2 i⟩
  have e15 : idx_main_v15 (ix2 r j) = ix2 r ⟨0 + j.val, by have := j.isLt; omega⟩ :=
    funext fun a => Fin.ext (match a with | ⟨0, _⟩ => rfl | ⟨1, _⟩ => (Nat.zero_add _).symm)
  have e16 : idx_main_v16 (ix2 r j) = ix2 r ⟨1024 + j.val, by have := j.isLt; omega⟩ :=
    funext fun a => match a with | ⟨0, _⟩ => rfl | ⟨1, _⟩ => rfl
  have e17 : idx_main_v17 (ix2 r j) = ix2 r ⟨2048 + j.val, by have := j.isLt; omega⟩ :=
    funext fun a => match a with | ⟨0, _⟩ => rfl | ⟨1, _⟩ => rfl
  rw [val_main_v33_apply, val_main_v31_apply, val_main_v32_apply, val_main_v29_apply, val_main_v23_apply, val_main_v30_apply,
    val_main_v27_apply, val_main_v21_apply, val_main_v25_apply, val_main_v19_apply, val_main_v24_apply, val_main_v18_apply,
    val_main_v15_apply, val_main_v16_apply, val_main_v17_apply, one20, one22, one26, one28, e15, e16, e17,
    gates_ref, gates_ref, gates_ref, sigmoid_ref, sigmoid_ref]
  rfl

end Cert.ReferenceIdeal.RefCell

end
-- ==== Proof.lean ====
/-
  The LSTM cell-state kernel against its jnp reference, over the extended reals.

  Both programs compute, for every batch row `r` and column `j`,
      σ(g (1024 + j)) · c(r, j)  +  σ(g j) · tanh (g (2048 + j)),
  where `g n` adds the two products `Σ_k x(r, k) · Wx(k, n)` and `Σ_k h(r, k) · Wh(k, n)` and the two joined biases at `n`,
  `Wx` and `Wh` being the three input-side and the three hidden-side weight matrices transposed and set side by side
  (Proof/CellSpec.lean).  The kernel builds the wide matrices on the host, narrows them (the identity on extended
  reals), and computes 256 batch rows per grid point with the logistic function as one operation; the reference
  stacks the weights, transposes the stack, adds the first bias before the second product and spells the logistic
  function as `1 / (1 + e^(−t))`.  Over the extended reals the four summands of a gate add to the same value in
  either order, and the spelled-out quotient is the logistic function, so no finiteness of the inputs is used.

  The kernel's frame, at the word level and at the ideal instance, is Proof/CellFrame.lean and
  Proof/CellFrameIdeal.lean; its result array is read in Proof/CellValue.lean (over Proof/CellPayload.lean), the
  reference's in Proof/RefCell.lean over its run.  The idealization rewrote nothing, so `preserves` asks nothing.
-/
import proofs.«178243_j33921651704111_1_alg».proof.Defs
import proofs.«178243_j33921651704111_1_alg».proof.Proof.Gen.Kernel
import proofs.«178243_j33921651704111_1_alg».proof.Proof.Gen.KernelIdeal
import proofs.«178243_j33921651704111_1_alg».proof.Proof.Gen.ReferenceIdeal
import proofs.«178243_j33921651704111_1_alg».proof.Proof.Gen.Pre_finite_inputs
import proofs.«178243_j33921651704111_1_alg».proof.Proof.Gen.ReferenceIdeal.Run
import proofs.«178243_j33921651704111_1_alg».proof.Proof.CellFrame
import proofs.«178243_j33921651704111_1_alg».proof.Proof.CellFrameIdeal
import proofs.«178243_j33921651704111_1_alg».proof.Proof.CellValue
import proofs.«178243_j33921651704111_1_alg».proof.Proof.RefCell
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Cell.frame m ρ

/-- So does the kernel read at the ideal instance. -/
theorem frame_kernelIdeal : Cert.frame_KernelIdeal := fun m ρ _ => Cert.KernelIdeal.Cell.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- Both result arrays are the specification's new cell state of the arguments, which agree. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v33_eq, Cert.ReferenceIdeal.RefCell.result_eq, a0, a1, a2, a3, a4, a5, a6, a7, a8, a9, a10, a11, a12, a13, a14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
